-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x2048 : Shape := ⟨2, ![2048, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048 .f32) (main_arg6 : FVec F S2048 .f32) (main_arg7 : FVec F S2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8x4096x2048 .f32) (main_arg1 : FVec F S2048x2048 .f32) (main_arg2 : FVec F S2048 .f32) (main_arg3 : FVec F S2048x2048 .f32) (main_arg4 : FVec F S2048 .f32) (main_arg5 : FVec F S2048 .f32) (main_arg6 : FVec F S2048 .f32) (main_arg7 : FVec F S2048 .f32) (main_arg8 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S8x4096x2048 : Shape := ⟨3, ![8, 4096, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S32768x2048, .f32⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S32768x2048, .f32⟩
  | .hbm, ⟨19, _⟩ => ⟨S8x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x4096x2048_S32768x2048 : S8x4096x2048.ShapeCasts S32768x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S32768x2048_S8x4096x2048 : S32768x2048.ShapeCasts S8x4096x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S32768x2048.size a
  hwx0_9 : ∀ i : grid0.Coords, EltTy.bits .f32 = 32 ∨ (Rect.block (s := S32768x2048) S256x2048.size (cc0_transform_9 i) (hinb0_9 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x2048 : Shape := ⟨2, ![2048, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x2048, .f32⟩
  | .hbm, ⟨31, _⟩ => ⟨S8x4096x2048, .f32⟩
  | .hbm, ⟨32, _⟩ => ⟨S1x1x2048, .f32⟩
  | .hbm, ⟨33, _⟩ => ⟨S8x4096x2048, .f32⟩
  | .hbm, ⟨34, _⟩ => ⟨S8x4096x2048, .f32⟩
  | .hbm, ⟨35, _⟩ => ⟨S1x1x2048, .f32⟩
  | .hbm, ⟨36, _⟩ => ⟨S8x4096x2048, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S_, .f32⟩
  | .hbm, ⟨41, _⟩ => ⟨S8x4096x2048, .f32⟩
  | .hbm, ⟨42, _⟩ => ⟨S8x4096x2048, .f32⟩
  | .hbm, ⟨43, _⟩ => ⟨S_, .f32⟩
  | .hbm, ⟨44, _⟩ => ⟨S8x4096x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S1x1x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x2048, .f32⟩
  | .hbm, ⟨67, _⟩ => ⟨S8x4096x2048, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x2048, .f32⟩
  | .hbm, ⟨73, _⟩ => ⟨S8x4096x2048, .f32⟩
  | .hbm, ⟨74, _⟩ => ⟨S1x1x2048, .f32⟩
  | .hbm, ⟨75, _⟩ => ⟨S8x4096x2048, .f32⟩
  | .hbm, ⟨76, _⟩ => ⟨S8x4096x2048, .f32⟩
  | .hbm, ⟨77, _⟩ => ⟨S1x1x2048, .f32⟩
  | .hbm, ⟨78, _⟩ => ⟨S8x4096x2048, .f32⟩
  | .hbm, ⟨79, _⟩ => ⟨S8x4096x2048, .f32⟩
  | .hbm, ⟨80, _⟩ => ⟨S8x4096x2048, .f32⟩
  | .hbm, ⟨81, _⟩ => ⟨S8x4096x2048, .f32⟩
  | .hbm, ⟨82, _⟩ => ⟨S_, .f32⟩
  | .hbm, ⟨83, _⟩ => ⟨S8x4096x2048, .f32⟩
  | .hbm, ⟨84, _⟩ => ⟨S8x4096x2048, .f32⟩
  | .hbm, ⟨85, _⟩ => ⟨S_, .f32⟩
  | .hbm, ⟨86, _⟩ => ⟨S8x4096x2048, .f32⟩
  | .hbm, ⟨87, _⟩ => ⟨S8x4096x2048, .f32⟩
  | .hbm, ⟨88, _⟩ => ⟨S8x4096x2048, .f32⟩
  | .hbm, ⟨89, _⟩ => ⟨S8x4096x2048, .f32⟩
  | .hbm, ⟨90, _⟩ => ⟨S1x1x2048, .f32⟩
  | .hbm, ⟨91, _⟩ => ⟨S8x4096x2048, .f32⟩
  | .hbm, ⟨92, _⟩ => ⟨S8x4096x2048, .f32⟩
  | .hbm, ⟨93, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩

abbrev nD : Nat := 1
abbrev τ : Topo := Topo.v7x

variable {F : FTy → Type} [FloatOps F]

class Facts₀ : Prop where
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  dot_S8x4096x2048_S2048x2048_S8x4096x2048_2_0_01_1_n_n_wf : DotDims.WF S8x4096x2048 S2048x2048 S8x4096x2048 [2] [0] [0, 1] [1] [] []

variable [Facts₀]

def dot_S8x4096x2048_S2048x2048_S8x4096x2048_2_0_01_1_n_n : DotDims S8x4096x2048 S2048x2048 S8x4096x2048 where
  lhsContracting := [2]
  rhsContracting := [0]
  lhsNonContracting := [0, 1]
  rhsNonContracting := [1]
  lhsBatch := []
  rhsBatch := []
  wf := dot_S8x4096x2048_S2048x2048_S8x4096x2048_2_0_01_1_n_n_wf

class Facts : Prop extends Facts₀ where

variable [Facts]
-- ==== Proof.ResBlock.lean ====
/-
  The residual block on the extended reals, one row at a time.

  A row `v` of 2048 entries goes through
      layer norm (gain, shift)  →  silu  →  dense layer  →  layer norm  →  silu  →  dense layer,
  and the row itself is added to what comes out. Here
    * the mean of a row is its sum divided by the row length,
    * layer norm centres the row, multiplies by the inverse square root of the guarded mean
      square deviation, then by the gain, and adds the shift,
    * `silu a = a · logistic a`,
    * a dense layer is `Σ_k v k · w k j + b j`.
  The row length and the guard are kept as the float words both programs carry: the same word
  stands on both sides of every equation below, so neither is ever evaluated.

  The block of a whole `[8, 4096, 2048]` array acts on each of its `8 · 4096` rows; the same
  rows laid out as `[32768, 2048]` give the flattened form.
-/
import Idealize.ShloMosaic.PureOps.Ideal
import Idealize.ShloMosaic.Lib.ValueIdx

noncomputable section

open scoped BigOperators

namespace Cert.ResBlock

open Idealize.ShloMosaic Idealize.ShloMosaic.ValueIdx

/-- The row length, `2048.0` as an f32 word. -/
def width : EReal := Ideal.ofBits .f32 0x45000000#32

/-- The guard added to a mean square deviation before the inverse square root, as an f32 word. -/
def guard : EReal := Ideal.ofBits .f32 0x358637BD#32

/-- The mean of a row: its sum over the row length. -/
def rowMean (v : Fin 2048 → EReal) : EReal := Ideal.div (∑ k : Fin 2048, v k) width

/-- The mean square deviation of a row from its mean. -/
def rowVar (v : Fin 2048 → EReal) : EReal :=
  rowMean fun k => (v k - rowMean v) * (v k - rowMean v)

/-- Layer norm of the row `v` with gain `g` and shift `b`, at column `j`. -/
def layerNorm (v g b : Fin 2048 → EReal) (j : Fin 2048) : EReal :=
  (v j - rowMean v) * Ideal.rsqrt (rowVar v + guard) * g j + b j

/-- `silu a = a · logistic a`. -/
def silu (a : EReal) : EReal := a * Ideal.logistic a

/-- A dense layer on a row: `Σ_k v k · w k j + b j`. -/
def dense (v : Fin 2048 → EReal) (w : Fin 2048 → Fin 2048 → EReal) (b : Fin 2048 → EReal) (j : Fin 2048) : EReal :=
  (∑ k : Fin 2048, v k * w k j) + b j

/-- The first half of the block on a row: layer norm, silu, dense layer. -/
def hidden (v g1 be1 : Fin 2048 → EReal) (w1 : Fin 2048 → Fin 2048 → EReal) (b1 : Fin 2048 → EReal) : Fin 2048 → EReal :=
  dense (fun c => silu (layerNorm v g1 be1 c)) w1 b1

/-- One row through the block, at column `j`: the row plus the second half applied to the first. -/
def blockRow (v : Fin 2048 → EReal) (w1 : Fin 2048 → Fin 2048 → EReal) (b1 : Fin 2048 → EReal)
    (w2 : Fin 2048 → Fin 2048 → EReal) (b2 g1 be1 g2 be2 : Fin 2048 → EReal) (j : Fin 2048) : EReal :=
  v j + dense (fun c => silu (layerNorm (hidden v g1 be1 w1 b1) g2 be2 c)) w2 b2 j

/-! ## Whole arrays -/

/-- A `[2048, 2048]` array as a function of its two coordinates. -/
def mat (w : (⟨2, ![2048, 2048]⟩ : Shape).Idx → EReal) : Fin 2048 → Fin 2048 → EReal := fun k j => w (ix2 k j)

/-- A `[2048]` array as a function of its coordinate. -/
def vec (b : (⟨1, ![2048]⟩ : Shape).Idx → EReal) : Fin 2048 → EReal := fun k => b (ix1 k)

/-- The block of a whole `[8, 4096, 2048]` array: entry `(a, s, j)` is row `(a, s)` through the block at `j`. -/
def whole (x : (⟨3, ![8, 4096, 2048]⟩ : Shape).Idx → EReal)
    (w1 : (⟨2, ![2048, 2048]⟩ : Shape).Idx → EReal) (b1 : (⟨1, ![2048]⟩ : Shape).Idx → EReal)
    (w2 : (⟨2, ![2048, 2048]⟩ : Shape).Idx → EReal) (b2 g1 be1 g2 be2 : (⟨1, ![2048]⟩ : Shape).Idx → EReal) :
    (⟨3, ![8, 4096, 2048]⟩ : Shape).Idx → EReal :=
  fun i => blockRow (fun k => x (ix3 (i 0) (i 1) k)) (mat w1) (vec b1) (mat w2) (vec b2) (vec g1) (vec be1) (vec g2) (vec be2) (i 2)

/-- The same rows laid out as `[32768, 2048]`: entry `(r, j)` is row `r` through the block at `j`. -/
def flat (xf : (⟨2, ![32768, 2048]⟩ : Shape).Idx → EReal)
    (w1 : (⟨2, ![2048, 2048]⟩ : Shape).Idx → EReal) (b1 : (⟨1, ![2048]⟩ : Shape).Idx → EReal)
    (w2 : (⟨2, ![2048, 2048]⟩ : Shape).Idx → EReal) (b2 g1 be1 g2 be2 : (⟨1, ![2048]⟩ : Shape).Idx → EReal) :
    (⟨2, ![32768, 2048]⟩ : Shape).Idx → EReal :=
  fun i => blockRow (fun k => xf (ix2 (i 0) k)) (mat w1) (vec b1) (mat w2) (vec b2) (vec g1) (vec be1) (vec g2) (vec be2) (i 1)

end Cert.ResBlock

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.KernelRows.lean ====
/-
  The kernel body on one block of 256 rows, read entry by entry.

  The body loads a `256 × 2048` block `x` of rows, the two `2048 × 2048` weight matrices and six
  one-row blocks (two biases, two gains, two shifts), and stores ONE value: a `256 × 2048` block whose
  entry `(p, q)` depends on row `p` of `x` only. Stage by stage, on the extended reals:
    * the column of row means: each row's lane sum, kept as a `256 × 1` column, over the row length;
    * the centred block: each entry minus its row's mean (the column broadcast along the row);
    * the column of mean square deviations, formed in the same way from the centred block squared;
    * layer norm: centred entry × inverse square root of (deviation + guard) × gain + shift, the gain
      and the shift one row broadcast down the 256 rows;
    * silu, entry by entry;
    * the dense layer: the product with a weight matrix accumulated from zero — a change of float
      format is the identity here — plus the bias row broadcast down.
  Each stage at `(p, q)` is the specification's function of row `p`; the body's stored value is the
  stages composed, so at `(p, q)` it is row `p` through the residual block at column `q`.
-/
import proofs.«104607_j69999376990851_1_alg».proof.Proof.Gen.KernelIdeal.Skeleton
import proofs.«104607_j69999376990851_1_alg».proof.Proof.ResBlock
import proofs.«104607_j69999376990851_1_alg».proof.Proof.LibRowSums
import proofs.«104607_j69999376990851_1_alg».proof.Proof.LibMatrixReads
import proofs.«104607_j69999376990851_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelRows

open Cert.KernelIdeal Cert.KernelIdeal.Gen Idealize.ShloMosaic Idealize.ShloMosaic.TcCoe Idealize.ShloMosaic.ValueIdx
open Cert.ResBlock

/-! ## Rows, one-row blocks and matrices as functions of their coordinates -/

/-- Row `p` of a `256 × 2048` block. -/
def row (v : FVec Ideal S256x2048 .f32) (p : Fin 256) : Fin 2048 → EReal := fun k => v (ix2 p k)

/-- A `1 × 2048` block as a function of the column. -/
def lane (g : Vec Ideal S1x2048 .f32) : Fin 2048 → EReal := fun k => g (ix2 (0 : Fin 1) k)

/-- A `2048 × 2048` matrix as a function of its two coordinates. -/
def entries (w : Vec Ideal S2048x2048 .bf16) : Fin 2048 → Fin 2048 → EReal := fun k j => w (ix2 k j)

/-! ## The stages, as the body spells them -/

/-- The column of row means: the lane sum of each row, recast as a column, over the row length. -/
def colMean (v : FVec Ideal S256x2048 .f32) : FVec Ideal S256x1 .f32 :=
  divf (shapeCast S256x1 (multiReduction .add [1] S256 v 0x00000000#32 reduces_S256x2048_S256 (.inl rfl) rfl) shapeCasts_S256_S256x1)
    (broadcast S256x1 (Scalar.ofBits .f32 0x45000000#32))

theorem colMean_apply (v : FVec Ideal S256x2048 .f32) (p : Fin 256) (u : Fin 1) :
    colMean v (ix2 p u) = rowMean (row v p) := by
  unfold colMean rowMean
  rw [divf_apply, RowSums.shapeCast_a_a1_apply]
  exact congrArg₂ Ideal.div (RowSums.rowSum_apply v reduces_S256x2048_S256 _ _ p) rfl

/-- The centred block: each entry minus its row's mean. -/
def centred (v : FVec Ideal S256x2048 .f32) : FVec Ideal S256x2048 .f32 :=
  subf v (broadcastTo S256x2048 (colMean v) broadcasts_S256x1_S256x2048)

theorem centred_apply (v : FVec Ideal S256x2048 .f32) (p : Fin 256) (q : Fin 2048) :
    centred v (ix2 p q) = v (ix2 p q) - rowMean (row v p) := by
  unfold centred
  rw [subf_apply, RowSums.broadcastTo_a1_ac_apply, colMean_apply]

/-- The column of mean square deviations: the row means of the centred block squared. -/
def colVar (v : FVec Ideal S256x2048 .f32) : FVec Ideal S256x1 .f32 :=
  colMean (mulf (centred v) (centred v))

theorem colVar_apply (v : FVec Ideal S256x2048 .f32) (p : Fin 256) (u : Fin 1) :
    colVar v (ix2 p u) = rowVar (row v p) := by
  unfold colVar rowVar
  rw [colMean_apply]
  refine congrArg rowMean (funext fun k => ?_)
  show mulf (centred v) (centred v) (ix2 p k) = _
  rw [mulf_apply, centred_apply]
  rfl

/-- Layer norm of a block with a gain row and a shift row. -/
def normed (v : FVec Ideal S256x2048 .f32) (g b : Vec Ideal S1x2048 .f32) : FVec Ideal S256x2048 .f32 :=
  addf
    (mulf
      (mulf (centred v)
        (broadcastTo S256x2048 (rsqrt (addf (colVar v) (broadcast S256x1 (Scalar.ofBits .f32 0x358637BD#32)))) broadcasts_S256x1_S256x2048))
      (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

theorem normed_apply (v : FVec Ideal S256x2048 .f32) (g b : Vec Ideal S1x2048 .f32) (p : Fin 256) (q : Fin 2048) :
    normed v g b (ix2 p q) = layerNorm (row v p) (lane g) (lane b) q := by
  unfold normed layerNorm
  rw [addf_apply, mulf_apply, mulf_apply, centred_apply, RowSums.broadcastTo_a1_ac_apply,
    MatrixReads.rowBroadcast_apply, MatrixReads.rowBroadcast_apply, shapeCast_self, shapeCast_self]
  show _ * Ideal.rsqrt (colVar v (ix2 p (0 : Fin 1)) + _) * _ + _ = _
  rw [colVar_apply]
  rfl

/-- silu of a block, entry by entry. -/
def act (y : FVec Ideal S256x2048 .f32) : FVec Ideal S256x2048 .f32 := mulf y (logistic y)

theorem act_apply (y : FVec Ideal S256x2048 .f32) (p : Fin 256) (q : Fin 2048) :
    act y (ix2 p q) = silu (y (ix2 p q)) := rfl

/-- The dense layer on a block: the product with the weight matrix from a zero accumulator, plus the bias row. -/
def denseOf (y : FVec Ideal S256x2048 .f32) (w : Vec Ideal S2048x2048 .bf16) (b : Vec Ideal S1x2048 .f32) : FVec Ideal S256x2048 .f32 :=
  addf
    (matmul dot_S256x2048_S2048x2048_S256x2048_1_0_0_1_n_n none (truncf .bf16 y bitsLt_bf16_f32)
      (shapeCast S2048x2048 w shapeCasts_S2048x2048_S2048x2048 : FVec Ideal S2048x2048 .bf16) (constant S256x2048 .f32 0x00000000#32))
    (broadcastTo S256x2048 (shapeCast S1x2048 b shapeCasts_S1x2048_S1x2048) broadcasts_S1x2048_S256x2048)

theorem denseOf_apply (y : FVec Ideal S256x2048 .f32) (w : Vec Ideal S2048x2048 .bf16) (b : Vec Ideal S1x2048 .f32)
    (p : Fin 256) (q : Fin 2048) :
    denseOf y w b (ix2 p q) = dense (row y p) (entries w) (lane b) q := by
  unfold denseOf dense
  rw [addf_apply, MatrixReads.rowBroadcast_apply, shapeCast_self, shapeCast_self]
  refine congrArg (· + lane b q) ?_
  exact PlainDot.matmul_zero_apply 256 2048 2048 none (truncf .bf16 y bitsLt_bf16_f32) w p q

/-! ## The body's stored value is the stages composed -/

/-- The loaded block of rows, recast to its own shape, is itself. -/
theorem rows_eq (x0 : Vec Ideal S256x2048 .f32) : k0_pay2 x0 = x0 := by
  unfold k0_pay2
  exact shapeCast_self _ _

/-- The hidden block: layer norm, silu, dense layer. -/
theorem hidden_eq (x0 : Vec Ideal S256x2048 .f32) (g1 be1 : Vec Ideal S1x2048 .f32) (w1 : Vec Ideal S2048x2048 .bf16)
    (b1 : Vec Ideal S1x2048 .f32) :
    k0_pay3 x0 g1 be1 w1 b1 = denseOf (act (normed (k0_pay2 x0) g1 be1)) w1 b1 := rfl

/-- The stored block: the rows plus layer norm, silu, dense layer of the hidden block. -/
theorem stored_eq (x0 : Vec Ideal S256x2048 .f32) (g1 be1 : Vec Ideal S1x2048 .f32) (w1 : Vec Ideal S2048x2048 .bf16)
    (b1 g2 be2 : Vec Ideal S1x2048 .f32) (w2 : Vec Ideal S2048x2048 .bf16) (b2 : Vec Ideal S1x2048 .f32) :
    k0_pay1 (k0_pay2 x0) (k0_pay3 x0 g1 be1 w1 b1) (k0_pay4 x0 g1 be1 w1 b1) (k0_pay5 (F := Ideal)) g2 be2 w2 b2
      = addf (k0_pay2 x0) (denseOf (act (normed (k0_pay3 x0 g1 be1 w1 b1) g2 be2)) w2 b2) := rfl

/-- Entry `(p, q)` of the stored block is row `p` of the loaded rows through the residual block at `q`. -/
theorem stored_apply (x0 : Vec Ideal S256x2048 .f32) (w1 : Vec Ideal S2048x2048 .bf16) (b1 : Vec Ideal S1x2048 .f32)
    (w2 : Vec Ideal S2048x2048 .bf16) (b2 g1 be1 g2 be2 : Vec Ideal S1x2048 .f32) (p : Fin 256) (q : Fin 2048) :
    k0_pay1 (k0_pay2 x0) (k0_pay3 x0 g1 be1 w1 b1) (k0_pay4 x0 g1 be1 w1 b1) (k0_pay5 (F := Ideal)) g2 be2 w2 b2 (ix2 p q)
      = blockRow (row x0 p) (entries w1) (lane b1) (entries w2) (lane b2) (lane g1) (lane be1) (lane g2) (lane be2) q := by
  have hhid : row (k0_pay3 x0 g1 be1 w1 b1) p = Cert.ResBlock.hidden (row x0 p) (lane g1) (lane be1) (entries w1) (lane b1) := by
    funext k
    show k0_pay3 x0 g1 be1 w1 b1 (ix2 p k) = _
    rw [hidden_eq, denseOf_apply, rows_eq]
    unfold Cert.ResBlock.hidden
    refine congrArg (fun r => dense r (entries w1) (lane b1) k) (funext fun c => ?_)
    show act (normed x0 g1 be1) (ix2 p c) = _
    rw [act_apply, normed_apply]
  rw [stored_eq, addf_apply, denseOf_apply, rows_eq]
  unfold blockRow
  refine congrArg (fun r => x0 (ix2 p q) + dense r (entries w2) (lane b2) q) (funext fun c => ?_)
  show act (normed (k0_pay3 x0 g1 be1 w1 b1) g2 be2) (ix2 p c) = _
  rw [act_apply, normed_apply, hhid]

end Cert.KernelRows

end
-- ==== Proof.KernelArray.lean ====
/-
  From blocks to the whole array: what the kernel program leaves in its result.

  The grid has 128 points; point `t` reads rows `256·t … 256·t + 255` of the flattened
  `[32768, 2048]` input together with the whole weight matrices and one-row blocks (their block
  index is `0` at every point), and writes back the same rows of the flattened output. So the
  output array, once every point has written, holds at `(r, j)` row `r` of the flattened input
  through the residual block at `j`: point `r / 256` is the one that covers row `r`.
  Around the region the program only re-lays arrays out: the input's rows are flattened before it,
  the vectors become one-row arrays, the weights change float format (the identity on the extended
  reals), and the output is unflattened after it; row `4096·a + s` of the flattened array is row
  `(a, s)` of the three-axis one.
-/
import proofs.«104607_j69999376990851_1_alg».proof.Proof.Gen.KernelIdeal.Frame
import proofs.«104607_j69999376990851_1_alg».proof.Proof.KernelRows
import proofs.«104607_j69999376990851_1_alg».proof.Proof.ResBlock
import proofs.«104607_j69999376990851_1_alg».proof.Proof.LibMatrixReads
import Idealize.ShloMosaic.Lib.Pipeline.Value
import Idealize.ShloMosaic.Lib.ValueIdx
import Idealize.ShloMosaic.Lib.StableHlo.Run

set_option maxRecDepth 16384

noncomputable section

namespace Cert.KernelArray

open Cert.KernelIdeal Cert.KernelIdeal.Gen Idealize.ShloMosaic Idealize.ShloMosaic.TcCoe Idealize.ShloMosaic.ValueIdx
open Idealize.SL.Sem
open Idealize.ShloMosaic.Pipeline (Dat)
open Cert.ResBlock Cert.KernelRows

variable (m : (ℓ : Loc nD τ sig) → Buf (Elt Ideal) ℓ) (ρ : Dev nD → PrngReg)

/-! ## The block index of every window at every point -/

/-- The rows' window and the output's window are at block `(t, 0)` at point `t`; every other window stays at `(0, 0)`. -/
theorem block_index : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The output array as one function of the arrays the region finds -/

/-- Entry `(r, j)` of the flattened output: row `r` of the flattened input through the block at `j`, the weights,
    biases, gains and shifts read off the arrays the region finds. -/
def filled (c : Dev nD) : S32768x2048.Idx → EReal := fun i =>
  blockRow (fun k => V m c main_v0 (ix2 (i 0) k))
    (fun k j => V m c main_v1 (ix2 k j)) (fun k => V m c main_v3 (ix2 (0 : Fin 1) k))
    (fun k j => V m c main_v2 (ix2 k j)) (fun k => V m c main_v4 (ix2 (0 : Fin 1) k))
    (fun k => V m c main_v5 (ix2 (0 : Fin 1) k)) (fun k => V m c main_v6 (ix2 (0 : Fin 1) k))
    (fun k => V m c main_v7 (ix2 (0 : Fin 1) k)) (fun k => V m c main_v8 (ix2 (0 : Fin 1) k)) (i 1)

theorem zero_offset : (![0, 0] : Fin 2 → Nat) = fun _ => 0 := funext fun a => by fin_cases a <;> rfl

/-- A weight matrix's block is the whole matrix at every point. -/
theorem weights1_block (c : Dev nD) (t : Fin cfg0.N) :
    entries (iblk m c 1 t) = fun k j => V m c main_v1 (ix2 k j) := by
  obtain ⟨-, -, -, -, e0, e1, -⟩ := block_index t
  funext k j
  show ((cfg0.win 1).blk t).view.read (Elt Ideal) (V m c (Pipeline.arrRef spec0 1)) (ix2 k j) = _
  rw [View.read_apply]
  show V m c main_v1 _ = V m c main_v1 _
  refine congrArg (V m c main_v1) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * j.val = j.val; rw [e1]; omega

theorem weights2_block (c : Dev nD) (t : Fin cfg0.N) :
    entries (iblk m c 3 t) = fun k j => V m c main_v2 (ix2 k j) := by
  obtain ⟨-, -, -, -, -, -, -, -, e0, e1, -⟩ := block_index t
  funext k j
  show ((cfg0.win 3).blk t).view.read (Elt Ideal) (V m c (Pipeline.arrRef spec0 3)) (ix2 k j) = _
  rw [View.read_apply]
  show V m c main_v2 _ = V m c main_v2 _
  refine congrArg (V m c main_v2) (funext fun a => Fin.ext ?_)
  match a with
  | ⟨0, _⟩ => show win0_3.index t (0 : Fin 2) * 2048 + 1 * k.val = k.val; rw [e0]; omega
  | ⟨1, _⟩ => show win0_3.index t (1 : Fin 2) * 2048 + 1 * j.val = j.val; rw [e1]; omega

/-- A one-row array's block is the whole row at every point. -/
theorem bias1_block (c : Dev nD) (t : Fin cfg0.N) :
    lane (iblk m c 2 t) = fun k => V m c main_v3 (ix2 (0 : Fin 1) k) := by
  obtain ⟨-, -, -, -, -, -, e0, e1, -⟩ := block_index t
  funext k
  show ((cfg0.win 2).blk t).view.read (Elt Ideal) (V m c (Pipeline.arrRef spec0 2)) (ix2 (0 : Fin 1) k) = _
  rw [View.read_apply]
  show V m c main_v3 _ = V m c main_v3 _
  refine congrArg (V m c main_v3) (funext fun a => Fin.ext ?_)
  match a with
  | ⟨0, _⟩ => show win0_2.index t (0 : Fin 2) * 1 + 1 * 0 = 0; rw [e0]
  | ⟨1, _⟩ => show win0_2.index t (1 : Fin 2) * 2048 + 1 * k.val = k.val; rw [e1]; omega

theorem bias2_block (c : Dev nD) (t : Fin cfg0.N) :
    lane (iblk m c 4 t) = fun k => V m c main_v4 (ix2 (0 : Fin 1) k) := by
  obtain ⟨-, -, -, -, -, -, -, -, -, -, e0, e1, -⟩ := block_index t
  funext k
  show ((cfg0.win 4).blk t).view.read (Elt Ideal) (V m c (Pipeline.arrRef spec0 4)) (ix2 (0 : Fin 1) k) = _
  rw [View.read_apply]
  show V m c main_v4 _ = V m c main_v4 _
  refine congrArg (V m c main_v4) (funext fun a => Fin.ext ?_)
  match a with
  | ⟨0, _⟩ => show win0_4.index t (0 : Fin 2) * 1 + 1 * 0 = 0; rw [e0]
  | ⟨1, _⟩ => show win0_4.index t (1 : Fin 2) * 2048 + 1 * k.val = k.val; rw [e1]; omega

theorem gain1_block (c : Dev nD) (t : Fin cfg0.N) :
    lane (iblk m c 5 t) = fun k => V m c main_v5 (ix2 (0 : Fin 1) k) := by
  obtain ⟨-, -, -, -, -, -, -, -, -, -, -, -, e0, e1, -⟩ := block_index t
  funext k
  show ((cfg0.win 5).blk t).view.read (Elt Ideal) (V m c (Pipeline.arrRef spec0 5)) (ix2 (0 : Fin 1) k) = _
  rw [View.read_apply]
  show V m c main_v5 _ = V m c main_v5 _
  refine congrArg (V m c main_v5) (funext fun a => Fin.ext ?_)
  match a with
  | ⟨0, _⟩ => show win0_5.index t (0 : Fin 2) * 1 + 1 * 0 = 0; rw [e0]
  | ⟨1, _⟩ => show win0_5.index t (1 : Fin 2) * 2048 + 1 * k.val = k.val; rw [e1]; omega

theorem shift1_block (c : Dev nD) (t : Fin cfg0.N) :
    lane (iblk m c 6 t) = fun k => V m c main_v6 (ix2 (0 : Fin 1) k) := by
  obtain ⟨-, -, -, -, -, -, -, -, -, -, -, -, -, -, e0, e1, -⟩ := block_index t
  funext k
  show ((cfg0.win 6).blk t).view.read (Elt Ideal) (V m c (Pipeline.arrRef spec0 6)) (ix2 (0 : Fin 1) k) = _
  rw [View.read_apply]
  show V m c main_v6 _ = V m c main_v6 _
  refine congrArg (V m c main_v6) (funext fun a => Fin.ext ?_)
  match a with
  | ⟨0, _⟩ => show win0_6.index t (0 : Fin 2) * 1 + 1 * 0 = 0; rw [e0]
  | ⟨1, _⟩ => show win0_6.index t (1 : Fin 2) * 2048 + 1 * k.val = k.val; rw [e1]; omega

theorem gain2_block (c : Dev nD) (t : Fin cfg0.N) :
    lane (iblk m c 7 t) = fun k => V m c main_v7 (ix2 (0 : Fin 1) k) := by
  obtain ⟨-, -, -, -, -, -, -, -, -, -, -, -, -, -, -, -, e0, e1, -⟩ := block_index t
  funext k
  show ((cfg0.win 7).blk t).view.read (Elt Ideal) (V m c (Pipeline.arrRef spec0 7)) (ix2 (0 : Fin 1) k) = _
  rw [View.read_apply]
  show V m c main_v7 _ = V m c main_v7 _
  refine congrArg (V m c main_v7) (funext fun a => Fin.ext ?_)
  match a with
  | ⟨0, _⟩ => show win0_7.index t (0 : Fin 2) * 1 + 1 * 0 = 0; rw [e0]
  | ⟨1, _⟩ => show win0_7.index t (1 : Fin 2) * 2048 + 1 * k.val = k.val; rw [e1]; omega

theorem shift2_block (c : Dev nD) (t : Fin cfg0.N) :
    lane (iblk m c 8 t) = fun k => V m c main_v8 (ix2 (0 : Fin 1) k) := by
  obtain ⟨-, -, -, -, -, -, -, -, -, -, -, -, -, -, -, -, -, -, e0, e1⟩ := block_index t
  funext k
  show ((cfg0.win 8).blk t).view.read (Elt Ideal) (V m c (Pipeline.arrRef spec0 8)) (ix2 (0 : Fin 1) k) = _
  rw [View.read_apply]
  show V m c main_v8 _ = V m c main_v8 _
  refine congrArg (V m c main_v8) (funext fun a => Fin.ext ?_)
  match a with
  | ⟨0, _⟩ => show win0_8.index t (0 : Fin 2) * 1 + 1 * 0 = 0; rw [e0]
  | ⟨1, _⟩ => show win0_8.index t (1 : Fin 2) * 2048 + 1 * k.val = k.val; rw [e1]; omega

/-- Row `p` of the rows' block at point `t` is row `256·t + p` of the flattened input. -/
theorem rows_block (c : Dev nD) (t : Fin cfg0.N) (p : Fin 256) (r : Fin 32768) (hr : r.val = t.val * 256 + p.val) :
    row (iblk m c 0 t) p = fun k => V m c main_v0 (ix2 r k) := by
  obtain ⟨e0, e1, -⟩ := block_index t
  funext k
  show ((cfg0.win 0).blk t).view.read (Elt Ideal) (V m c (Pipeline.arrRef spec0 0)) (ix2 p k) = _
  rw [View.read_apply]
  show V m c main_v0 _ = V m c main_v0 _
  refine congrArg (V m c main_v0) (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-! ## What a point writes back, and the whole output array -/

/-- Entry `(p, q)` of the output's block at point `t` is entry `(256·t + p, q)` of the array. -/
theorem out_entry (t : Fin cfg0.N) (p : Fin 256) (q : Fin 2048) (r : Fin 32768) (hr : r.val = t.val * 256 + p.val) :
    ((cfg0.win 9).blk t).view.emb (ix2 p q) = ix2 r q := by
  obtain ⟨-, -, e0, e1, -⟩ := block_index t
  funext a
  apply Fin.ext
  match a with
  | ⟨0, _⟩ => show win0_9.index t (0 : Fin 2) * 256 + 1 * p.val = r.val; rw [e0, hr]; omega
  | ⟨1, _⟩ => show win0_9.index t (1 : Fin 2) * 2048 + 1 * q.val = q.val; rw [e1]; omega

/-- What point `t` writes back is block `t` of `filled`. -/
theorem written_block (c : Dev nD) (t : Fin cfg0.N) :
    (dats m 0 c).flushed 9 t = ((cfg0.win 9).blk t).view.read (Elt Ideal) (filled m c) := by
  show (cfg0.win 9).cut (grid0.coords t) ((dats m 0 c).after 9 t) = _
  rw [after0_9]
  unfold out0_9
  rw [View.canon_unit_zero zero_offset]
  simp only [View.ld_unit_zero (S := S256x2048) zero_offset, View.ld_unit_zero (S := S1x2048) zero_offset,
    View.ld_unit_zero (S := S2048x2048) zero_offset]
  funext y
  obtain ⟨p, q, rfl⟩ : ∃ (p : Fin 256) (q : Fin 2048), y = ix2 p q := ⟨y 0, y 1, eq_ix2 y⟩
  have hN : cfg0.N = 128 := N_0
  have hr : t.val * 256 + p.val < 32768 := by have := t.isLt; have := p.isLt; omega
  rw [View.read_apply, out_entry t p q ⟨t.val * 256 + p.val, hr⟩ rfl]
  refine (stored_apply (iblk m c 0 t) (iblk m c 1 t) (iblk m c 2 t) (iblk m c 3 t) (iblk m c 4 t) (iblk m c 5 t)
    (iblk m c 6 t) (iblk m c 7 t) (iblk m c 8 t) p q).trans ?_
  rw [rows_block m c t p ⟨t.val * 256 + p.val, hr⟩ rfl, weights1_block, bias1_block, weights2_block, bias2_block,
    gain1_block, shift1_block, gain2_block, shift2_block]
  rfl

/-- An index of the output array is in point `t`'s block iff each coordinate is in the block's range. -/
theorem mem_block (t : Fin cfg0.N) (i : S32768x2048.Idx) :
    i ∈ ((cfg0.win 9).blk t).view.set ↔ ∀ a : Fin 2, win0_9.index t a * S256x2048.size a ≤ (i a).val
      ∧ (i a).val < win0_9.index t a * S256x2048.size a + S256x2048.size a := by
  show i ∈ ((View.whole main_v9).slice (win0_9.rect t)).set ↔ _
  rw [View.set_slice_whole, Rect.mem_set_unit]
  exact Iff.rfl

/-- Every entry of the output array is written back by some point: row `r` by point `r / 256`. -/
theorem covered (i : S32768x2048.Idx) :
    ∃ t : Fin cfg0.N, (cfg0.win 9).flush t = true ∧ i ∈ ((cfg0.win 9).blk t).view.set := by
  have hi0 : (i 0).val < 32768 := (i 0).isLt
  have hi1 : (i 1).val < 2048 := (i 1).isLt
  have hN : cfg0.N = 128 := N_0
  have ht : (i 0).val / 256 < cfg0.N := by rw [hN]; omega
  obtain ⟨-, -, e0, e1, -⟩ := block_index ⟨(i 0).val / 256, ht⟩
  refine ⟨⟨(i 0).val / 256, ht⟩, flush0_9 _, ?_⟩
  rw [mem_block]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 2) * 2048 ≤ (i 1).val
      ∧ (i 1).val < win0_9.index ⟨(i 0).val / 256, ht⟩ (1 : Fin 2) * 2048 + 2048
    rw [e1]; omega

/-- The output array, once every point has written back. -/
theorem array_final (c : Dev nD) : (dats m 0 c).arrAt 9 cfg0.N = filled m c :=
  (dats m 0 c).arrAt_eq_of_cover 9 (filled m c) (fun t _ => written_block m c t) (covered)

/-! ## Around the region: the arrays are only laid out anew -/

/-- The region finds the input with its rows flattened. -/
theorem rows_found (c : Dev nD) :
    V m c main_v0 = shapeCast S32768x2048 (m ((c : Thread nD τ).loc main_arg0)) shapeCasts_S8x4096x2048_S32768x2048 := by
  show StableHlo.after hostOps0 (fun b => m (c, b)) (Proc.devRef .tc main_v0) = _
  after_results
  rfl

/-- After the region the output is unflattened. -/
theorem result_found (c : Dev nD) :
    Pipeline.afterTail₀ cfgs (dats m) 0 (V0 m) [hostOps1] c main_v10
      = shapeCast S8x4096x2048 (filled m c) shapeCasts_S32768x2048_S8x4096x2048 := by
  have hw : Pipeline.withArrays (cfgs 0).spec c (V0 m c) (fun w => (dats m 0 c).arrAt w (cfgs 0).N) (Proc.devRef .tc main_v9)
      = filled m c := (Pipeline.withArrays_arr spec0 launch0.win.arr_inj c _ _ 9).trans (array_final m c)
  unfold Pipeline.afterTail₀
  show StableHlo.after hostOps1 _ (Proc.devRef .tc main_v10) = _
  after_results
  rw [hw]
  rfl

/-- The region finds the first weight matrix in the narrower float format: the same extended reals. -/
theorem weights1_found (c : Dev nD) :
    V m c main_v1 = truncf (F := Ideal) (s := S2048x2048) (φ := .f32) .bf16 (m ((c : Thread nD τ).loc main_arg1)) bitsLt_bf16_f32 := by
  show StableHlo.after hostOps0 (fun b => m (c, b)) (Proc.devRef .tc main_v1) = _
  after_results

theorem weights2_found (c : Dev nD) :
    V m c main_v2 = truncf (F := Ideal) (s := S2048x2048) (φ := .f32) .bf16 (m ((c : Thread nD τ).loc main_arg3)) bitsLt_bf16_f32 := by
  show StableHlo.after hostOps0 (fun b => m (c, b)) (Proc.devRef .tc main_v2) = _
  after_results

/-- The region finds each vector laid out as a single row. -/
theorem bias1_found (c : Dev nD) :
    V m c main_v3 = shapeCast S1x2048 (m ((c : Thread nD τ).loc main_arg2)) shapeCasts_S2048_S1x2048 := by
  show StableHlo.after hostOps0 (fun b => m (c, b)) (Proc.devRef .tc main_v3) = _
  after_results
  rfl

theorem bias2_found (c : Dev nD) :
    V m c main_v4 = shapeCast S1x2048 (m ((c : Thread nD τ).loc main_arg4)) shapeCasts_S2048_S1x2048 := by
  show StableHlo.after hostOps0 (fun b => m (c, b)) (Proc.devRef .tc main_v4) = _
  after_results
  rfl

theorem gain1_found (c : Dev nD) :
    V m c main_v5 = shapeCast S1x2048 (m ((c : Thread nD τ).loc main_arg5)) shapeCasts_S2048_S1x2048 := by
  show StableHlo.after hostOps0 (fun b => m (c, b)) (Proc.devRef .tc main_v5) = _
  after_results
  rfl

theorem shift1_found (c : Dev nD) :
    V m c main_v6 = shapeCast S1x2048 (m ((c : Thread nD τ).loc main_arg6)) shapeCasts_S2048_S1x2048 := by
  show StableHlo.after hostOps0 (fun b => m (c, b)) (Proc.devRef .tc main_v6) = _
  after_results
  rfl

theorem gain2_found (c : Dev nD) :
    V m c main_v7 = shapeCast S1x2048 (m ((c : Thread nD τ).loc main_arg7)) shapeCasts_S2048_S1x2048 := by
  show StableHlo.after hostOps0 (fun b => m (c, b)) (Proc.devRef .tc main_v7) = _
  after_results
  rfl

theorem shift2_found (c : Dev nD) :
    V m c main_v8 = shapeCast S1x2048 (m ((c : Thread nD τ).loc main_arg8)) shapeCasts_S2048_S1x2048 := by
  show StableHlo.after hostOps0 (fun b => m (c, b)) (Proc.devRef .tc main_v8) = _
  after_results
  rfl

/-- A vector laid out as a single row, read along the row, is the vector. -/
theorem row_of_vec (b : S2048.Idx → EReal) :
    (fun k : Fin 2048 => shapeCast S1x2048 b shapeCasts_S2048_S1x2048 (ix2 (0 : Fin 1) k)) = vec b :=
  funext fun k => MatrixReads.rowOfVec_apply 2048 b shapeCasts_S2048_S1x2048 k

/-- Row `4096·a + s` of the flattened input is row `(a, s)` of the input. -/
theorem flat_row (x : S8x4096x2048.Idx → EReal) (a : Fin 8) (s : Fin 4096) (r : Fin 32768) (hr : r.val = a.val * 4096 + s.val) :
    (fun k : Fin 2048 => shapeCast S32768x2048 x shapeCasts_S8x4096x2048_S32768x2048 (ix2 r k)) = fun k => x (ix3 a s k) :=
  funext fun k => shapeCast_apply x shapeCasts_S8x4096x2048_S32768x2048 (ix2 r k) (ix3 a s k) (by
    rw [Shape.rowMajor_val_two, Shape.rowMajor_val_three]
    show (a.val * 4096 + s.val) * 2048 + k.val = r.val * 2048 + k.val
    rw [hr])

/-! ## The kernel program's result -/

/-- The result array the kernel program leaves is the residual block of its input. -/
theorem result_whole (c : Dev nD) :
    Pipeline.afterTail₀ cfgs (dats m) 0 (V0 m) [hostOps1] c main_v10
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [result_found]
  funext i
  obtain ⟨a, s, j, rfl⟩ : ∃ (a : Fin 8) (s : Fin 4096) (j : Fin 2048), i = ix3 a s j := ⟨i 0, i 1, i 2, eq_ix3 i⟩
  have hr : a.val * 4096 + s.val < 32768 := by have := a.isLt; have := s.isLt; omega
  rw [shapeCast_apply (filled m c) shapeCasts_S32768x2048_S8x4096x2048 (ix3 a s j)
    (ix2 (⟨a.val * 4096 + s.val, hr⟩ : Fin 32768) j) (by
      rw [Shape.rowMajor_val_two, Shape.rowMajor_val_three]
      show (a.val * 4096 + s.val) * 2048 + j.val = (a.val * 4096 + s.val) * 2048 + j.val
      rfl)]
  unfold filled whole
  rw [rows_found, weights1_found, weights2_found, bias1_found, bias2_found, gain1_found, shift1_found, gain2_found, shift2_found]
  show blockRow (fun k => shapeCast S32768x2048 (m ((c : Thread nD τ).loc main_arg0)) shapeCasts_S8x4096x2048_S32768x2048
        (ix2 (⟨a.val * 4096 + s.val, hr⟩ : Fin 32768) k)) _ _ _ _ _ _ _ _ j = _
  rw [flat_row (m ((c : Thread nD τ).loc main_arg0)) a s ⟨a.val * 4096 + s.val, hr⟩ rfl,
    row_of_vec (m ((c : Thread nD τ).loc main_arg2)), row_of_vec (m ((c : Thread nD τ).loc main_arg4)),
    row_of_vec (m ((c : Thread nD τ).loc main_arg5)), row_of_vec (m ((c : Thread nD τ).loc main_arg6)),
    row_of_vec (m ((c : Thread nD τ).loc main_arg7)), row_of_vec (m ((c : Thread nD τ).loc main_arg8))]
  rfl

/-- Every weakly fair execution of the kernel program ends with the result array at the residual block of the
    input, and with the nine argument arrays as they were. -/
theorem run : θ_run defs (onTc (τ := τ) (main (F := Ideal))) ⟨m, fun _ => 0, ρ⟩ fun r => ∀ c : Dev nD,
      r.2.mem ((c.tc : Thread nD τ).loc main_v10)
        = whole (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v10 (Pipeline.mem_restRefs_of main_v10 (by decide) (by decide))).trans (result_whole m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelArray

end
-- ==== Proof.RefBlock.lean ====
/-
  The reference program's result, read index by index, is the residual block of the specification.

  The program works on whole arrays; every step is read at one entry `(a, s, j)`. A broadcast reads
  its operand at the entry with the broadcast axes dropped (or set to `0`), a row sum reads the row
  `(a, s, ·)`, and a contraction with a weight matrix reads row `(a, s, ·)` against column `j`.
  Step by step the entry of each intermediate array is identified with the specification's
  function of the row: the mean, the mean square deviation, the layer norm, `silu`, the dense layer —
  first on the rows of the input, then the same steps on the rows of the hidden array — and at the
  end the input entry plus the second dense layer.
-/
import proofs.«104607_j69999376990851_1_alg».proof.Defs
import proofs.«104607_j69999376990851_1_alg».proof.Proof.Gen.ReferenceIdeal.Read
import proofs.«104607_j69999376990851_1_alg».proof.Proof.ResBlock
import Idealize.ShloMosaic.Lib.ValueIdx
import Idealize.ShloMosaic.PureOps.Ideal.Laws

noncomputable section

open scoped BigOperators

namespace Cert.RefBlock

open Cert.ReferenceIdeal Cert.ReferenceIdeal.Gen Cert.ReferenceIdeal.Read Idealize.ShloMosaic Idealize.ShloMosaic.TcCoe
  Idealize.ShloMosaic.ValueIdx Cert.ResBlock

/-- An `[8, 4096, 2048]` array of extended reals. -/
abbrev ArrRows := (⟨S8x4096x2048, .f32⟩ : BufTy).Contents (Elt Ideal)
/-- A `[2048, 2048]` array of extended reals. -/
abbrev ArrMat := (⟨S2048x2048, .f32⟩ : BufTy).Contents (Elt Ideal)
/-- A `[2048]` array of extended reals. -/
abbrev ArrVec := (⟨S2048, .f32⟩ : BufTy).Contents (Elt Ideal)

/-! ## The index maps at coordinates -/

/-- Two index functions into a rank-3 shape agree when their three coordinates do. -/
local macro "coords3" : tactic =>
  `(tactic| exact funext fun d => Fin.ext (by match d with | ⟨0, _⟩ => rfl | ⟨1, _⟩ => rfl | ⟨2, _⟩ => rfl))
/-- Likewise into a rank-2 shape. -/
local macro "coords2" : tactic =>
  `(tactic| exact funext fun d => Fin.ext (by match d with | ⟨0, _⟩ => rfl | ⟨1, _⟩ => rfl))
/-- Likewise into a rank-1 shape. -/
local macro "coords1" : tactic =>
  `(tactic| exact funext fun d => Fin.ext (by match d with | ⟨0, _⟩ => rfl))

section Coordinates
variable (a : Fin 8) (s : Fin 4096) (j k : Fin 2048) (u : Fin 1) (p q : Fin 1)

-- a row sum of the `[8, 4096]` result at `(a, s)` runs over the entries `(a, s, k)`
theorem idx_v0 : idx_main_v0 (ix2 a s) k = ix3 a s k := by coords3
theorem idx_v7 : idx_main_v7 (ix2 a s) k = ix3 a s k := by coords3
theorem idx_v29 : idx_main_v29 (ix2 a s) k = ix3 a s k := by coords3
theorem idx_v36 : idx_main_v36 (ix2 a s) k = ix3 a s k := by coords3
-- keeping the summed axis as an axis of length one
theorem idx_v1 : idx_main_v1 (ix3 a s u) = ix2 a s := by coords2
theorem idx_v8 : idx_main_v8 (ix3 a s u) = ix2 a s := by coords2
theorem idx_v30 : idx_main_v30 (ix3 a s u) = ix2 a s := by coords2
theorem idx_v37 : idx_main_v37 (ix3 a s u) = ix2 a s := by coords2
-- a per-row quantity broadcast along the row
theorem idx_v4 : idx_main_v4 (ix3 a s j) = ix3 a s (0 : Fin 1) := by coords3
theorem idx_v11 : idx_main_v11 (ix3 a s j) = ix3 a s (0 : Fin 1) := by coords3
theorem idx_v16 : idx_main_v16 (ix3 a s j) = ix3 a s (0 : Fin 1) := by coords3
theorem idx_v33 : idx_main_v33 (ix3 a s j) = ix3 a s (0 : Fin 1) := by coords3
theorem idx_v40 : idx_main_v40 (ix3 a s j) = ix3 a s (0 : Fin 1) := by coords3
theorem idx_v45 : idx_main_v45 (ix3 a s j) = ix3 a s (0 : Fin 1) := by coords3
-- a `[2048]` vector as a `[1, 1, 2048]` array
theorem idx_v18 : idx_main_v18 (ix3 p q j) = ix1 j := by coords1
theorem idx_v21 : idx_main_v21 (ix3 p q j) = ix1 j := by coords1
theorem idx_v26 : idx_main_v26 (ix3 p q j) = ix1 j := by coords1
theorem idx_v47 : idx_main_v47 (ix3 p q j) = ix1 j := by coords1
theorem idx_v50 : idx_main_v50 (ix3 p q j) = ix1 j := by coords1
theorem idx_v55 : idx_main_v55 (ix3 p q j) = ix1 j := by coords1
-- and that array broadcast over all rows
theorem idx_v19 : idx_main_v19 (ix3 a s j) = ix3 (0 : Fin 1) (0 : Fin 1) j := by coords3
theorem idx_v22 : idx_main_v22 (ix3 a s j) = ix3 (0 : Fin 1) (0 : Fin 1) j := by coords3
theorem idx_v27 : idx_main_v27 (ix3 a s j) = ix3 (0 : Fin 1) (0 : Fin 1) j := by coords3
theorem idx_v48 : idx_main_v48 (ix3 a s j) = ix3 (0 : Fin 1) (0 : Fin 1) j := by coords3
theorem idx_v51 : idx_main_v51 (ix3 a s j) = ix3 (0 : Fin 1) (0 : Fin 1) j := by coords3
theorem idx_v56 : idx_main_v56 (ix3 a s j) = ix3 (0 : Fin 1) (0 : Fin 1) j := by coords3
-- a contraction of row `(a, s, ·)` with column `j` of a weight matrix
theorem lidx_v25 : lidx_main_v25 (ix3 a s j) k = ix3 a s k := by coords3
theorem ridx_v25 : ridx_main_v25 (ix3 a s j) k = ix2 k j := by coords2
theorem lidx_v54 : lidx_main_v54 (ix3 a s j) k = ix3 a s k := by coords3
theorem ridx_v54 : ridx_main_v54 (ix3 a s j) k = ix2 k j := by coords2

end Coordinates

/-! ## The float word of one -/

/-- The f32 word `0x3F800000` is the extended real `1`. -/
theorem ofBits_one_f32 : Ideal.ofBits .f32 0x3F800000#32 = 1 := by
  simp [Ideal.ofBits, Ideal.ieee, -EReal.coe_mul]; norm_num

/-! ## The first half: the rows of the input -/

section FirstHalf
variable (x0 : ArrRows) (x1 : ArrMat) (x2 x5 x6 : ArrVec) (a : Fin 8) (s : Fin 4096) (j : Fin 2048) (u : Fin 1)

/-- The mean array at `(a, s, ·)` is the mean of row `(a, s)` of the input: the row's sum (from a zero
    start) over the row length. -/
theorem mean_in : val_main_v3 (F := Ideal) x0 (ix3 a s u) = rowMean fun k => x0 (ix3 a s k) := by
  rw [val_main_v3_apply, val_main_v1_apply, val_main_v0_apply, val_main_v2_apply, val_main_cst_0_apply,
    val_main_cst_apply]
  simp only [idx_v1, idx_v0, Ideal.hostDivf_def, Ideal.ofBits_def, Ideal.ofBits_zero_f32, zero_add]
  rfl

/-- The array of mean square deviations at `(a, s, ·)` is that of row `(a, s)` of the input: every
    entry of the row minus the row's mean, squared, summed, over the row length. -/
theorem var_in : val_main_v10 (F := Ideal) x0 (ix3 a s u) = rowVar fun k => x0 (ix3 a s k) := by
  rw [val_main_v10_apply, val_main_v8_apply, val_main_v7_apply, val_main_v9_apply, val_main_cst_2_apply,
    val_main_cst_1_apply]
  simp only [idx_v8, idx_v7, val_main_v6_apply, val_main_v5_apply, val_main_v4_apply, idx_v4, mean_in,
    Ideal.hostDivf_def, Ideal.mulf_def, Ideal.subf_def, Ideal.ofBits_def, Ideal.ofBits_zero_f32, zero_add]
  rfl

/-- The first layer norm at `(a, s, j)`: the centred entry times the inverse square root of the guarded
    mean square deviation, times the gain at `j`, plus the shift at `j`. -/
theorem norm_in : val_main_v23 (F := Ideal) x0 x5 x6 (ix3 a s j)
    = layerNorm (fun k => x0 (ix3 a s k)) (vec x5) (vec x6) j := by
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply]
  simp only [idx_v11, idx_v16, idx_v19, idx_v18, idx_v22, idx_v21, mean_in, var_in, Ideal.addf_def, Ideal.mulf_def,
    Ideal.subf_def, Ideal.hostUnary_rsqrt_def, Ideal.ofBits_def]
  rfl

end FirstHalf

section FirstHalfActivation
variable (x0 : ArrRows) (x1 : ArrMat) (x2 x5 x6 : ArrVec) (a : Fin 8) (s : Fin 4096) (j : Fin 2048)

/-- The first activation at `(a, s, j)`: the program's `y · (1 / (1 + exp (-y)))` at the layer norm `y`
    is `silu y`, the quotient being the logistic function by definition. -/
theorem act_in : val_main_v24 (F := Ideal) x0 x5 x6 (ix3 a s j)
    = silu (layerNorm (fun k => x0 (ix3 a s k)) (vec x5) (vec x6) j) := by
  rw [val_main_v24_apply, val_main_call0_v5_apply, val_main_call0_v4_apply, val_main_call0_cst_0_apply,
    val_main_call0_v3_apply, val_main_call0_v2_apply, val_main_call0_cst_apply, val_main_call0_v1_apply,
    val_main_call0_v0_apply, norm_in]
  simp only [Ideal.mulf_def, Ideal.hostDivf_def, Ideal.addf_def, Ideal.hostUnary_exp_def, Ideal.hostNegf_def,
    Ideal.negf_def, Ideal.ofBits_def, ofBits_one_f32]
  rfl

/-- The hidden array at `(a, s, j)`: row `(a, s)` of the activations against column `j` of the first
    weight matrix, plus the first bias at `j`. -/
theorem hidden_in : val_main_v28 (F := Ideal) x0 x1 x2 x5 x6 (ix3 a s j)
    = hidden (fun k => x0 (ix3 a s k)) (vec x5) (vec x6) (mat x1) (vec x2) j := by
  rw [val_main_v28_apply, val_main_v25_apply, val_main_v27_apply, val_main_v26_apply]
  simp only [lidx_v25, ridx_v25, idx_v27, idx_v26, act_in, Ideal.addf_def]
  rfl

end FirstHalfActivation

/-! ## The second half: the same steps on the rows of the hidden array -/

section SecondHalf
variable (x0 : ArrRows) (x1 : ArrMat) (x2 : ArrVec) (x3 : ArrMat) (x4 x5 x6 x7 x8 : ArrVec)
  (a : Fin 8) (s : Fin 4096) (j : Fin 2048) (u : Fin 1)

/-- The second mean array at `(a, s, ·)` is the mean of row `(a, s)` of the hidden array. -/
theorem mean_hid : val_main_v32 (F := Ideal) x0 x1 x2 x5 x6 (ix3 a s u)
    = rowMean fun k => val_main_v28 (F := Ideal) x0 x1 x2 x5 x6 (ix3 a s k) := by
  rw [val_main_v32_apply, val_main_v30_apply, val_main_v29_apply, val_main_v31_apply, val_main_cst_5_apply,
    val_main_cst_4_apply]
  simp only [idx_v30, idx_v29, Ideal.hostDivf_def, Ideal.ofBits_def, Ideal.ofBits_zero_f32, zero_add]
  rfl

/-- The second array of mean square deviations at `(a, s, ·)` is that of row `(a, s)` of the hidden array. -/
theorem var_hid : val_main_v39 (F := Ideal) x0 x1 x2 x5 x6 (ix3 a s u)
    = rowVar fun k => val_main_v28 (F := Ideal) x0 x1 x2 x5 x6 (ix3 a s k) := by
  rw [val_main_v39_apply, val_main_v37_apply, val_main_v36_apply, val_main_v38_apply, val_main_cst_7_apply,
    val_main_cst_6_apply]
  simp only [idx_v37, idx_v36, val_main_v35_apply, val_main_v34_apply, val_main_v33_apply, idx_v33, mean_hid,
    Ideal.hostDivf_def, Ideal.mulf_def, Ideal.subf_def, Ideal.ofBits_def, Ideal.ofBits_zero_f32, zero_add]
  rfl

/-- The second layer norm at `(a, s, j)`, of row `(a, s)` of the hidden array with the second gain and shift. -/
theorem norm_hid : val_main_v52 (F := Ideal) x0 x1 x2 x5 x6 x7 x8 (ix3 a s j)
    = layerNorm (fun k => val_main_v28 (F := Ideal) x0 x1 x2 x5 x6 (ix3 a s k)) (vec x7) (vec x8) j := by
  rw [val_main_v52_apply, val_main_v49_apply, val_main_v46_apply, val_main_v41_apply, val_main_v40_apply,
    val_main_v45_apply, val_main_v44_apply, val_main_v43_apply, val_main_v42_apply, val_main_cst_8_apply,
    val_main_v48_apply, val_main_v47_apply, val_main_v51_apply, val_main_v50_apply]
  simp only [idx_v40, idx_v45, idx_v48, idx_v47, idx_v51, idx_v50, mean_hid, var_hid, Ideal.addf_def, Ideal.mulf_def,
    Ideal.subf_def, Ideal.hostUnary_rsqrt_def, Ideal.ofBits_def]
  rfl

/-- The second activation at `(a, s, j)` is `silu` of the second layer norm. -/
theorem act_hid : val_main_v53 (F := Ideal) x0 x1 x2 x5 x6 x7 x8 (ix3 a s j)
    = silu (layerNorm (fun k => val_main_v28 (F := Ideal) x0 x1 x2 x5 x6 (ix3 a s k)) (vec x7) (vec x8) j) := by
  rw [val_main_v53_apply, val_main_call1_v5_apply, val_main_call1_v4_apply, val_main_call1_cst_0_apply,
    val_main_call1_v3_apply, val_main_call1_v2_apply, val_main_call1_cst_apply, val_main_call1_v1_apply,
    val_main_call1_v0_apply, norm_hid]
  simp only [Ideal.mulf_def, Ideal.hostDivf_def, Ideal.addf_def, Ideal.hostUnary_exp_def, Ideal.hostNegf_def,
    Ideal.negf_def, Ideal.ofBits_def, ofBits_one_f32]
  rfl

/-- Row `(a, s)` of the hidden array is the specification's hidden row of row `(a, s)` of the input. -/
theorem hidden_row : (fun k => val_main_v28 (F := Ideal) x0 x1 x2 x5 x6 (ix3 a s k))
    = hidden (fun k => x0 (ix3 a s k)) (vec x5) (vec x6) (mat x1) (vec x2) :=
  funext fun k => hidden_in x0 x1 x2 x5 x6 a s k

/-- The result at `(a, s, j)`: the input entry plus row `(a, s)` of the second activations against
    column `j` of the second weight matrix plus the second bias at `j` — row `(a, s)` through the block. -/
theorem result_at : val_main_v58 (F := Ideal) x0 x1 x2 x3 x4 x5 x6 x7 x8 (ix3 a s j)
    = blockRow (fun k => x0 (ix3 a s k)) (mat x1) (vec x2) (mat x3) (vec x4) (vec x5) (vec x6) (vec x7) (vec x8) j := by
  rw [val_main_v58_apply, val_main_v57_apply, val_main_v54_apply, val_main_v56_apply, val_main_v55_apply]
  simp only [lidx_v54, ridx_v54, idx_v56, idx_v55, act_hid, Ideal.addf_def]
  rw [hidden_row]
  rfl

end SecondHalf

/-! ## The whole array -/

/-- The reference program's result is the residual block of the specification, entry by entry. -/
theorem result_eq
    (x0 : (⟨Cert.ReferenceIdeal.S8x4096x2048, .f32⟩ : BufTy).Contents (Elt Ideal))
    (x1 : (⟨Cert.ReferenceIdeal.S2048x2048, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 x5 x6 x7 x8 : (⟨Cert.ReferenceIdeal.S2048, .f32⟩ : BufTy).Contents (Elt Ideal)) :
    Cert.ReferenceIdeal.Read.val_main_v58 (F := Ideal) x0 x1 x2 x3 x4 x5 x6 x7 x8
      = Cert.ResBlock.whole x0 x1 x2 x3 x4 x5 x6 x7 x8 := by
  funext i
  obtain ⟨a, s, j, rfl⟩ : ∃ (a : Fin 8) (s : Fin 4096) (j : Fin 2048), i = ix3 a s j := ⟨i 0, i 1, i 2, eq_ix3 i⟩
  exact result_at x0 x1 x2 x3 x4 x5 x6 x7 x8 a s j

end Cert.RefBlock

end
-- ==== Proof.lean ====
/-
  A fused residual block against its reference, over the extended reals.

  Both programs send every row `v` of 2048 entries of an `[8, 4096, 2048]` input to
      v + dense₂ (silu (layerNorm₂ (dense₁ (silu (layerNorm₁ v))))),
  where a layer norm centres the row, multiplies by the inverse square root of the guarded mean square
  deviation, then by a gain, and adds a shift; `silu a = a · logistic a`; and a dense layer is a product
  with a `2048 × 2048` weight matrix plus a bias (Proof/ResBlock.lean has the functions).

  The kernel flattens the rows to `[32768, 2048]`, runs a grid of 128 points of 256 rows each with both
  weight matrices resident, and unflattens the result. Per block its body computes, in this order, exactly
  the operations above: each mean as a lane sum over the row length, the same guard word, the logistic
  function where the reference writes `1 / (1 + exp (-a))` (one function on the extended reals, by
  definition), each dense layer as a matrix product accumulated from zero where the reference contracts
  the last axis with the weights' first (the same sum), and a change of float format, which is the
  identity. No sum is regrouped across a product and nothing is cancelled, so the two results agree on
  every extended real and the inputs' finiteness is never used.

  * Proof/KernelRows.lean: entry `(p, q)` of the block the body stores is row `p` through the block at `q`.
  * Proof/KernelArray.lean: the 128 written blocks tile the output array, so after the run the kernel
    program's result is the block of the whole input.
  * Proof/RefBlock.lean: the reference program's result, read entry by entry, is the same function.
  The frames of the two kernel programs are the generated ones; the reference's frame is its generated run
  with the result dropped; no operation was rewritten on the way to the idealized kernel, so there is
  nothing to preserve.
-/
import proofs.«104607_j69999376990851_1_alg».proof.Defs
import proofs.«104607_j69999376990851_1_alg».proof.Proof.Gen.Kernel
import proofs.«104607_j69999376990851_1_alg».proof.Proof.Gen.Kernel.Skeleton
import proofs.«104607_j69999376990851_1_alg».proof.Proof.Gen.Kernel.Launch
import proofs.«104607_j69999376990851_1_alg».proof.Proof.Gen.Kernel.Points
import proofs.«104607_j69999376990851_1_alg».proof.Proof.Gen.Kernel.Frame
import proofs.«104607_j69999376990851_1_alg».proof.Proof.Gen.KernelIdeal
import proofs.«104607_j69999376990851_1_alg».proof.Proof.Gen.KernelIdeal.Skeleton
import proofs.«104607_j69999376990851_1_alg».proof.Proof.Gen.KernelIdeal.Launch
import proofs.«104607_j69999376990851_1_alg».proof.Proof.Gen.KernelIdeal.Points
import proofs.«104607_j69999376990851_1_alg».proof.Proof.Gen.KernelIdeal.Frame
import proofs.«104607_j69999376990851_1_alg».proof.Proof.Gen.ReferenceIdeal
import proofs.«104607_j69999376990851_1_alg».proof.Proof.Gen.ReferenceIdeal.Run
import proofs.«104607_j69999376990851_1_alg».proof.Proof.Gen.ReferenceIdeal.Read
import proofs.«104607_j69999376990851_1_alg».proof.Proof.Gen.Pre_finite_inputs
import proofs.«104607_j69999376990851_1_alg».proof.Proof.KernelArray
import proofs.«104607_j69999376990851_1_alg».proof.Proof.RefBlock
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten between the kernel and its reading on the extended reals. -/
theorem preserves : Cert.preserves_Kernel_KernelIdeal := trivial

/-- From memories that agree on the nine arguments, the kernel program's result array and the reference
    program's both end at the residual block of the input. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v58_eq, Cert.RefBlock.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
